-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x64 .f32) (main_arg3 : FVec F S64 .f32) (main_arg4 : FVec F S64x16 .f32) (main_arg5 : FVec F S16 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S10000x128 : Shape := ⟨2, ![10000, 128]⟩
abbrev S10000x64 : Shape := ⟨2, ![10000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x16 : Shape := ⟨2, ![100000, 16]⟩
abbrev S10000x16 : Shape := ⟨2, ![10000, 16]⟩
abbrev S1600000x16 : Shape := ⟨2, ![1600000, 16]⟩
abbrev S1x16 : Shape := ⟨2, ![1, 16]⟩

abbrev nBuf : Space → Nat
  | .hbm => 45
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x16, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x16, .f32⟩
  | .hbm, ⟨37, _⟩ => ⟨S1600000x16, .f32⟩
  | .hbm, ⟨38, _⟩ => ⟨S1600000x16, .f32⟩
  | .hbm, ⟨39, _⟩ => ⟨S_, .f32⟩
  | .hbm, ⟨40, _⟩ => ⟨S100000x16, .f32⟩
  | .hbm, ⟨41, _⟩ => ⟨S1600000x1, .i32⟩
  | .hbm, ⟨42, _⟩ => ⟨S100000x16, .f32⟩
  | .hbm, ⟨43, _⟩ => ⟨S1x16, .f32⟩
  | .hbm, ⟨44, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x16, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x16, .f32⟩
  | .hbm, ⟨42, _⟩ => ⟨S1600000x16, .f32⟩
  | .hbm, ⟨43, _⟩ => ⟨S1600000x16, .f32⟩
  | .hbm, ⟨44, _⟩ => ⟨S_, .f32⟩
  | .hbm, ⟨45, _⟩ => ⟨S100000x16, .f32⟩
  | .hbm, ⟨46, _⟩ => ⟨S1600000x1, .i32⟩
  | .hbm, ⟨47, _⟩ => ⟨S100000x16, .f32⟩
  | .hbm, ⟨48, _⟩ => ⟨S1x16, .f32⟩
  | .hbm, ⟨49, _⟩ => ⟨S100000x16, .f32⟩
  | .hbm, ⟨50, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.Layer1.lean ====
/-
  The first dense stage. Grid point `t` of the first call multiplies rows `10000·t … 10000·t + 9999` of `x` by the
  whole of `W1` on the matrix unit, into a zero accumulator; over the extended reals the two format changes in front of
  the product are the identity, so entry (r, j) of the block is `∑ k, x[10000·t + r, k] · W1[k, j]`. The ten blocks tile
  the [100000, 64] array, so after the call it holds `rowsTimes x W1`: entry (i, j) is `∑ k, x[i, k] · W1[k, j]`.
-/
import proofs.«167466_j89086211653947_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.Pipeline (Dat)

/-! ## The whole-array function -/

/-- Entry (row of `i`, `k`) of a matrix with 128 columns. -/
abbrev rowAt (i : S100000x64.Idx) (k : Fin 128) : S100000x128.Idx := fun a => match a with
  | ⟨0, _⟩ => ⟨(i 0).val, (i 0).isLt⟩
  | ⟨1, _⟩ => ⟨k.val, k.isLt⟩
/-- Entry (`k`, column of `i`) of a matrix with 128 rows. -/
abbrev colAt (i : S100000x64.Idx) (k : Fin 128) : S128x64.Idx := fun a => match a with
  | ⟨0, _⟩ => ⟨k.val, k.isLt⟩
  | ⟨1, _⟩ => ⟨(i 1).val, (i 1).isLt⟩

/-- `x · w` entry by entry: (i, j) ↦ ∑ k, x[i, k] · w[k, j]. -/
def rowsTimes (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (rowAt i k) * w (colAt i k)

/-! ## One block's product at an entry -/

theorem lhs_axis0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_axis0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_axis1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (row of `j`, `k`) of a block of rows. -/
abbrev blkRowAt (j : S10000x64.Idx) (k : Fin 128) : S10000x128.Idx := fun a => match a with
  | ⟨0, _⟩ => ⟨(j 0).val, (j 0).isLt⟩
  | ⟨1, _⟩ => ⟨k.val, k.isLt⟩
/-- Entry (`k`, column of `j`) of the weights. -/
abbrev blkColAt (j : S10000x64.Idx) (k : Fin 128) : S128x64.Idx := fun a => match a with
  | ⟨0, _⟩ => ⟨k.val, k.isLt⟩
  | ⟨1, _⟩ => ⟨(j 1).val, (j 1).isLt⟩

/-- What the body stores, at an entry: the sum over the 128 shared positions of the products (the accumulator is zero,
    and rounding to bf16 is the identity on extended reals). -/
theorem payload_apply (v0 : Vec Ideal S10000x128 .f32) (v2 : Vec Ideal S128x64 .f32) (j : S10000x64.Idx) :
    k0_pay1 (F := Ideal) v0 v2 j = ∑ k : Fin 128, v0 (blkRowAt j k) * v2 (blkColAt j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blkRowAt j k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx j ((ValueIdx.contrEquiv1 dot_S10000x128_S128x64_S10000x64_1_0_0_1_n_n 128 rfl rfl).symm k) = blkColAt j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the rows window and the output move together down the rows, the
    weights stay put. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `rowsTimes` of the arrays the call finds. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x64) origin]
  obtain ⟨e0, e1, e2, e3, e4, e5⟩ := index_facts t
  funext j
  show k0_pay1 (F := Ideal) (iblk0 V c 0 t) (iblk0 V c 1 t) ((cfg0.win 2).xinj (grid0.coords t) j)
    = rowsTimes (V c main_arg0) (V c main_arg2) (((cfg0.win 2).blk t).view.emb j)
  refine (payload_apply (iblk0 V c 0 t) (iblk0 V c 1 t) _).trans ?_
  unfold rowsTimes
  refine Finset.sum_congr rfl fun k _ => ?_
  have ha : iblk0 V c 0 t (blkRowAt ((cfg0.win 2).xinj (grid0.coords t) j) k)
      = V c main_arg0 (rowAt (((cfg0.win 2).blk t).view.emb j) k) := by
    show V c main_arg0 (((cfg0.win 0).blk t).view.emb (blkRowAt ((cfg0.win 2).xinj (grid0.coords t) j) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hb : iblk0 V c 1 t (blkColAt ((cfg0.win 2).xinj (grid0.coords t) j) k)
      = V c main_arg2 (colAt (((cfg0.win 2).blk t).view.emb j) k) := by
    show V c main_arg2 (((cfg0.win 1).blk t).view.emb (blkColAt ((cfg0.win 2).xinj (grid0.coords t) j) k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [ha, hb]

/-- An index of the array lies in point `t`'s block iff each coordinate lies in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row `r` of the array is in the block of point `r / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := index_facts t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the call the output array holds `rowsTimes` of the two arrays the call found. -/
theorem final (c : Dev nD) :
    (dat0 V c).arrAt 2 cfg0.N = rowsTimes (V c main_arg0) (V c main_arg2) :=
  (dat0 V c).arrAt_eq_of_cover 2 _ (fun t _ => flushed_eq V c t) covered

end Cert.KernelIdeal.Layer1

end
-- ==== Proof.Layer2.lean ====
/-
  The second dense stage. Grid point `t` of the second call takes rows `10000·t … 10000·t + 9999` of the aggregated
  hidden array `h`, adds the bias row, clamps below at zero and multiplies by the whole of `W2` on the matrix unit, into a
  zero accumulator. Over the extended reals entry (r, j) of the block is
  `∑ k, max (h[10000·t + r, k] + b[0, k]) 0 · W2[k, j]`; the ten blocks tile the [100000, 16] array, so after the call it
  holds `reluTimes h b W2`: entry (i, j) is `∑ k, max (h[i, k] + b[0, k]) 0 · W2[k, j]`.
-/
import proofs.«167466_j89086211653947_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.Pipeline (Dat)
open Idealize.ShloMosaic.ValueIdx

/-! ## The whole-array function -/

/-- Entry (row of `i`, `k`) of the hidden array. -/
abbrev rowAt (i : S100000x16.Idx) (k : Fin 64) : S100000x64.Idx := ix2 (⟨(i 0).val, idx2_lt0 i⟩ : Fin 100000) k
/-- Entry `k` of the one bias row. -/
abbrev biasAt (k : Fin 64) : S1x64.Idx := ix2 (0 : Fin 1) k
/-- Entry (`k`, column of `i`) of the weights. -/
abbrev colAt (i : S100000x16.Idx) (k : Fin 64) : S64x16.Idx := ix2 k (⟨(i 1).val, idx2_lt1 i⟩ : Fin 16)

/-- `relu (h + b) · w` entry by entry: (i, j) ↦ ∑ k, max (h[i, k] + b[0, k]) 0 · w[k, j]. -/
def reluTimes (h : (⟨S100000x64, .f32⟩ : BufTy).Contents (Elt Ideal)) (b : (⟨S1x64, .f32⟩ : BufTy).Contents (Elt Ideal))
    (w : (⟨S64x16, .f32⟩ : BufTy).Contents (Elt Ideal)) : (⟨S100000x16, .f32⟩ : BufTy).Contents (Elt Ideal) :=
  fun i => ∑ k : Fin 64, max (h (rowAt i k) + b (biasAt k)) (Ideal.ofBits .f32 0x00000000#32) * w (colAt i k)

/-! ## One block's product at an entry -/

theorem lhs_axis0 (j : S10000x16.Idx) (q : dot_S10000x64_S64x16_S10000x16_1_0_0_1_n_n.contr.Idx) :
    (dot_S10000x64_S64x16_S10000x16_1_0_0_1_n_n.lhsIdx j q 0).val = (j 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem lhs_axis1 (j : S10000x16.Idx) (q : dot_S10000x64_S64x16_S10000x16_1_0_0_1_n_n.contr.Idx) :
    (dot_S10000x64_S64x16_S10000x16_1_0_0_1_n_n.lhsIdx j q 1).val = (q ⟨0, by decide⟩).val :=
  dot_S10000x64_S64x16_S10000x16_1_0_0_1_n_n.lhsIdx_val_of_single rfl j q
theorem rhs_axis0 (j : S10000x16.Idx) (q : dot_S10000x64_S64x16_S10000x16_1_0_0_1_n_n.contr.Idx) :
    (dot_S10000x64_S64x16_S10000x16_1_0_0_1_n_n.rhsIdx j q 0).val = (q ⟨0, by decide⟩).val :=
  dot_S10000x64_S64x16_S10000x16_1_0_0_1_n_n.rhsIdx_val_of_single rfl j q
theorem rhs_axis1 (j : S10000x16.Idx) (q : dot_S10000x64_S64x16_S10000x16_1_0_0_1_n_n.contr.Idx) :
    (dot_S10000x64_S64x16_S10000x16_1_0_0_1_n_n.rhsIdx j q 1).val = (j 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- Entry (row of `j`, `k`) of a block of rows. -/
abbrev blkRowAt (j : S10000x16.Idx) (k : Fin 64) : S10000x64.Idx := ix2 (⟨(j 0).val, idx2_lt0 j⟩ : Fin 10000) k
/-- Entry (`k`, column of `j`) of the weights. -/
abbrev blkColAt (j : S10000x16.Idx) (k : Fin 64) : S64x16.Idx := ix2 k (⟨(j 1).val, idx2_lt1 j⟩ : Fin 16)

/-- The activation the body feeds the matrix unit, at an entry: the loaded rows plus the bias row, clamped below at
    zero (the two same-shape casts are the identity, the row broadcast reads row 0). -/
theorem activation_apply (v0 : Vec Ideal S10000x64 .f32) (v2 : Vec Ideal S1x64 .f32) (p : Fin 10000) (k : Fin 64) :
    maximumf (addf (shapeCast S10000x64 v0 shapeCasts_S10000x64_S10000x64)
        (broadcastTo S10000x64 (shapeCast S1x64 v2 shapeCasts_S1x64_S1x64) broadcasts_S1x64_S10000x64))
      (broadcast S10000x64 (Scalar.ofBits (F := Ideal) .f32 0x00000000#32)) (ix2 p k)
    = max (v0 (ix2 p k) + v2 (ix2 (0 : Fin 1) k)) (Ideal.ofBits .f32 0x00000000#32) := by
  rw [shapeCast_self, shapeCast_self]
  show max (v0 (ix2 p k) + broadcastTo S10000x64 v2 broadcasts_S1x64_S10000x64 (ix2 p k)) _ = _
  rw [broadcastTo_1b_ab_apply]
  rfl

/-- What the body stores, at an entry: the sum over the 64 shared positions of activation times weight. -/
theorem payload_apply (v0 : Vec Ideal S10000x64 .f32) (v2 : Vec Ideal S1x64 .f32) (v9 : Vec Ideal S64x16 .f32) (j : S10000x16.Idx) :
    k1_pay1 (F := Ideal) v0 v2 v9 j
      = ∑ k : Fin 64, max (v0 (blkRowAt j k) + v2 (biasAt k)) (Ideal.ofBits .f32 0x00000000#32) * v9 (blkColAt j k) := by
  unfold k1_pay1
  simp only [matmul]
  rw [Ideal.matmul_constant_zero_apply, ← Equiv.sum_comp (contrEquiv1 dot_S10000x64_S64x16_S10000x16_1_0_0_1_n_n 64 rfl rfl).symm]
  refine Finset.sum_congr rfl fun k _ => ?_
  have hk := contrEquiv1_symm_val dot_S10000x64_S64x16_S10000x16_1_0_0_1_n_n 64 rfl rfl k
  have el : dot_S10000x64_S64x16_S10000x16_1_0_0_1_n_n.lhsIdx j ((contrEquiv1 dot_S10000x64_S64x16_S10000x16_1_0_0_1_n_n 64 rfl rfl).symm k) = blkRowAt j k := funext fun a => Fin.ext (by
    match a with
    | ⟨0, _⟩ => exact lhs_axis0 _ _
    | ⟨1, _⟩ => exact (lhs_axis1 _ _).trans hk)
  have er : dot_S10000x64_S64x16_S10000x16_1_0_0_1_n_n.rhsIdx j ((contrEquiv1 dot_S10000x64_S64x16_S10000x16_1_0_0_1_n_n 64 rfl rfl).symm k) = blkColAt j k := funext fun a => Fin.ext (by
    match a with
    | ⟨0, _⟩ => exact (rhs_axis0 _ _).trans hk
    | ⟨1, _⟩ => exact rhs_axis1 _ _)
  rw [el, er]
  exact congrArg (· * v9 (blkColAt j k)) (activation_apply v0 v2 ⟨(j 0).val, idx2_lt0 j⟩ k)

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the rows window and the output move together down the rows, the
    bias row and the weights stay put. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `reluTimes` of the arrays the call finds. -/
theorem flushed_eq (c : Dev nD) (t : Fin cfg1.N) :
    (dat1 V c).flushed 3 t
      = ((cfg1.win 3).blk t).view.read (Elt Ideal) (reluTimes (V c main_v13) (V c main_v14) (V c main_arg4)) := by
  show (cfg1.win 3).cut (grid1.coords t) ((dat1 V c).after 3 t) = _
  rw [after1_3]
  unfold out1_3
  rw [View.canon_unit_zero origin]
  simp only [View.ld_unit_zero (S := S10000x64) origin, View.ld_unit_zero (S := S1x64) origin, View.ld_unit_zero (S := S64x16) origin]
  obtain ⟨e0, e1, e2, e3, e4, e5, e6, e7⟩ := index_facts t
  funext j
  show k1_pay1 (F := Ideal) (iblk1 V c 0 t) (iblk1 V c 1 t) (iblk1 V c 2 t) ((cfg1.win 3).xinj (grid1.coords t) j)
    = reluTimes (V c main_v13) (V c main_v14) (V c main_arg4) (((cfg1.win 3).blk t).view.emb j)
  refine (payload_apply (iblk1 V c 0 t) (iblk1 V c 1 t) (iblk1 V c 2 t) _).trans ?_
  unfold reluTimes
  refine Finset.sum_congr rfl fun k _ => ?_
  have ha : iblk1 V c 0 t (blkRowAt ((cfg1.win 3).xinj (grid1.coords t) j) k)
      = V c main_v13 (rowAt (((cfg1.win 3).blk t).view.emb j) k) := by
    show V c main_v13 (((cfg1.win 0).blk t).view.emb (blkRowAt ((cfg1.win 3).xinj (grid1.coords t) j) k)) = _
    refine congrArg (V c main_v13) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have hb : iblk1 V c 1 t (biasAt k) = V c main_v14 (biasAt k) := by
    show V c main_v14 (((cfg1.win 1).blk t).view.emb (biasAt k)) = _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have hc : iblk1 V c 2 t (blkColAt ((cfg1.win 3).xinj (grid1.coords t) j) k)
      = V c main_arg4 (colAt (((cfg1.win 3).blk t).view.emb j) k) := by
    show V c main_arg4 (((cfg1.win 2).blk t).view.emb (blkColAt ((cfg1.win 3).xinj (grid1.coords t) j) k)) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 16 + 1 * (j 1).val = win1_3.index t (1 : Fin 2) * 16 + 1 * (j 1).val; omega
  rw [ha, hb, hc]

/-- An index of the array lies in point `t`'s block iff each coordinate lies in the block's range on its axis. -/
theorem mem_block (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v15).slice (win1_3.rect t)).set ↔ _
  rw [View.set_slice_whole, Rect.mem_set_unit]
  exact Iff.rfl

/-- Row `r` of the array is in the block of point `r / 10000`. -/
theorem covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 10 := N_1
  let t : Fin cfg1.N := ⟨(i 0).val / 10000, by rw [hN]; omega⟩
  obtain ⟨-, -, -, -, -, -, e6, e7⟩ := index_facts t
  have e6' : win1_3.index t (0 : Fin 2) = (i 0).val / 10000 := e6
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- After the call the output array holds `reluTimes` of the three arrays the call found. -/
theorem final (c : Dev nD) :
    (dat1 V c).arrAt 3 cfg1.N = reluTimes (V c main_v13) (V c main_v14) (V c main_arg4) :=
  (dat1 V c).arrAt_eq_of_cover 3 _ (fun t _ => flushed_eq V c t) covered

end Cert.KernelIdeal.Layer2

end
-- ==== Proof.Layer3.lean ====
/-
  The closing stage. Grid point `t` of the third call takes rows `10000·t … 10000·t + 9999` of the aggregated output
  array and adds the bias row to each; entry (r, j) of the block is `a[10000·t + r, j] + b[0, j]`. The ten blocks tile the
  [100000, 16] array, so after the call it holds `plusRow a b`: entry (i, j) is `a[i, j] + b[0, j]`.
-/
import proofs.«167466_j89086211653947_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.Pipeline (Dat)
open Idealize.ShloMosaic.ValueIdx

/-! ## The whole-array function -/

/-- Entry (0, column of `i`) of the one bias row. -/
abbrev biasAt (i : S100000x16.Idx) : S1x16.Idx := ix2 (0 : Fin 1) (⟨(i 1).val, idx2_lt1 i⟩ : Fin 16)

/-- The bias row added to every row: (i, j) ↦ a[i, j] + b[0, j]. -/
def plusRow (a : (⟨S100000x16, .f32⟩ : BufTy).Contents (Elt Ideal)) (b : (⟨S1x16, .f32⟩ : BufTy).Contents (Elt Ideal)) :
    (⟨S100000x16, .f32⟩ : BufTy).Contents (Elt Ideal) :=
  fun i => a i + b (biasAt i)

/-! ## One block at an entry -/

/-- What the body stores, at an entry: the loaded entry plus the bias row's entry of that column (the two same-shape
    casts are the identity, the row broadcast reads row 0). -/
theorem payload_apply (v0 : Vec Ideal S10000x16 .f32) (v2 : Vec Ideal S1x16 .f32) (p : Fin 10000) (q : Fin 16) :
    k2_pay1 (F := Ideal) v0 v2 (ix2 p q) = v0 (ix2 p q) + v2 (ix2 (0 : Fin 1) q) := by
  show addf (F := Ideal) (φ := .f32) (shapeCast S10000x16 v0 shapeCasts_S10000x16_S10000x16)
      (broadcastTo S10000x16 (shapeCast S1x16 v2 shapeCasts_S1x16_S1x16) broadcasts_S1x16_S10000x16) (ix2 p q) = _
  rw [shapeCast_self, shapeCast_self]
  show v0 (ix2 p q) + broadcastTo S10000x16 v2 broadcasts_S1x16_S10000x16 (ix2 p q) = _
  rw [broadcastTo_1b_ab_apply]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the rows window and the output move together down the rows, the
    bias row stays put. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `plusRow` of the arrays the call finds. -/
theorem flushed_eq (c : Dev nD) (t : Fin cfg2.N) :
    (dat2 V c).flushed 2 t = ((cfg2.win 2).blk t).view.read (Elt Ideal) (plusRow (V c main_v28) (V c main_v29)) := by
  show (cfg2.win 2).cut (grid2.coords t) ((dat2 V c).after 2 t) = _
  rw [after2_2]
  unfold out2_2
  rw [View.canon_unit_zero origin]
  simp only [View.ld_unit_zero (S := S10000x16) origin, View.ld_unit_zero (S := S1x16) origin]
  obtain ⟨e0, e1, e2, e3, e4, e5⟩ := index_facts t
  funext j
  show k2_pay1 (F := Ideal) (iblk2 V c 0 t) (iblk2 V c 1 t) (ix2 (⟨(j 0).val, (j 0).isLt⟩ : Fin 10000) (⟨(j 1).val, (j 1).isLt⟩ : Fin 16))
    = plusRow (V c main_v28) (V c main_v29) (((cfg2.win 2).blk t).view.emb j)
  refine (payload_apply (iblk2 V c 0 t) (iblk2 V c 1 t) _ _).trans ?_
  unfold plusRow
  have ha : iblk2 V c 0 t (ix2 (⟨(j 0).val, (j 0).isLt⟩ : Fin 10000) (⟨(j 1).val, (j 1).isLt⟩ : Fin 16))
      = V c main_v28 (((cfg2.win 2).blk t).view.emb j) := by
    show V c main_v28 (((cfg2.win 0).blk t).view.emb (ix2 (⟨(j 0).val, (j 0).isLt⟩ : Fin 10000) (⟨(j 1).val, (j 1).isLt⟩ : Fin 16))) = _
    refine congrArg (V c main_v28) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * (j 1).val = win2_2.index t (1 : Fin 2) * 16 + 1 * (j 1).val; omega
  have hb : iblk2 V c 1 t (ix2 (0 : Fin 1) (⟨(j 1).val, (j 1).isLt⟩ : Fin 16))
      = V c main_v29 (biasAt (((cfg2.win 2).blk t).view.emb j)) := by
    show V c main_v29 (((cfg2.win 1).blk t).view.emb (ix2 (0 : Fin 1) (⟨(j 1).val, (j 1).isLt⟩ : Fin 16))) = _
    refine congrArg (V c main_v29) (funext fun a => Fin.ext ?_)
    match a with
    | ⟨0, _⟩ => show win2_1.index t (0 : Fin 2) * 1 + 1 * 0 = 0; omega
    | ⟨1, _⟩ => show win2_1.index t (1 : Fin 2) * 16 + 1 * (j 1).val = win2_2.index t (1 : Fin 2) * 16 + 1 * (j 1).val; omega
  rw [ha, hb]

/-- An index of the array lies in point `t`'s block iff each coordinate lies in the block's range on its axis. -/
theorem mem_block (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v30).slice (win2_2.rect t)).set ↔ _
  rw [View.set_slice_whole, Rect.mem_set_unit]
  exact Iff.rfl

/-- Row `r` of the array is in the block of point `r / 10000`. -/
theorem covered (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  let t : Fin cfg2.N := ⟨(i 0).val / 10000, by rw [hN]; omega⟩
  obtain ⟨-, -, -, -, e4, e5⟩ := index_facts t
  have e4' : win2_2.index t (0 : Fin 2) = (i 0).val / 10000 := e4
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- After the call the output array holds `plusRow` of the two arrays the call found. -/
theorem final (c : Dev nD) :
    (dat2 V c).arrAt 2 cfg2.N = plusRow (V c main_v28) (V c main_v29) :=
  (dat2 V c).arrAt_eq_of_cover 2 _ (fun t _ => flushed_eq V c t) covered

end Cert.KernelIdeal.Layer3

end
-- ==== Proof.Aggregate.lean ====
/-
  The sparse aggregation both programs perform on the host, carried as ONE function per feature width and never opened:
  `aggregate vals rows cols dense` gathers row `cols[e]` of `dense` for every edge `e` (a negative index first moved up by
  the number of nodes), scales it by `vals[e]`, and adds it into row `rows[e]` of a zero array — out[r] is the sum over
  the edges e with rows[e] = r of vals[e] · dense[cols[e]]. The certificate only ever needs that the two programs apply
  this same function to equal arrays.
-/
import proofs.«167466_j89086211653947_1_alg».proof.Proof.Gen.KernelIdeal
import Idealize.ShloMosaic.PureOps.Ideal

noncomputable section

namespace Cert.KernelIdeal.Aggregate

open Cert.KernelIdeal Cert.KernelIdeal.Gen Idealize.ShloMosaic

/-- The column indices as the gather takes them: a negative one moved up by 100000, laid out as an [edges, 1] array. -/
def startIndices (cols : (⟨S1600000, .i32⟩ : BufTy).Contents (Elt Ideal)) : (⟨S1600000x1, .i32⟩ : BufTy).Contents (Elt Ideal) :=
  broadcastInDim S1600000x1 ![0] bcast_S1600000_S1600000x1_0
    (select (cmpi .slt cols (broadcastInDim S1600000 ![] bcast_S_S1600000 (constantI S_ 32 0#32)))
      (addi cols (broadcastInDim S1600000 ![] bcast_S_S1600000 (constantI S_ 32 100000#32))) cols)

/-- The aggregation at width 64. -/
def aggregate64 (vals : (⟨S1600000, .f32⟩ : BufTy).Contents (Elt Ideal)) (rows cols : (⟨S1600000, .i32⟩ : BufTy).Contents (Elt Ideal))
    (dense : (⟨S100000x64, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 rows)
    (mulf (broadcastInDim S1600000x64 ![0, 1] bcast_S1600000x1_S1600000x64_0_1 (broadcastInDim S1600000x1 ![0] bcast_S1600000_S1600000x1_0 vals))
      (Host.gather gather_S100000x64_S1600000x1_S1600000x64_1_0_n_n_0_1_164 dense (startIndices cols)))

/-- The aggregation at width 16. -/
def aggregate16 (vals : (⟨S1600000, .f32⟩ : BufTy).Contents (Elt Ideal)) (rows cols : (⟨S1600000, .i32⟩ : BufTy).Contents (Elt Ideal))
    (dense : (⟨S100000x16, .f32⟩ : BufTy).Contents (Elt Ideal)) : (⟨S100000x16, .f32⟩ : BufTy).Contents (Elt Ideal) :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 rows)
    (mulf (broadcastInDim S1600000x16 ![0, 1] bcast_S1600000x1_S1600000x16_0_1 (broadcastInDim S1600000x1 ![0] bcast_S1600000_S1600000x1_0 vals))
      (Host.gather gather_S100000x16_S1600000x1_S1600000x16_1_0_n_n_0_1_116 dense (startIndices cols)))

end Cert.KernelIdeal.Aggregate

end
-- ==== Proof.Network.lean ====
/-
  The whole computation as ONE function of the eight argument arrays, the form both programs' results are brought to:
  a two-layer graph convolution. `x · W1` (Layer1.rowsTimes), aggregated over the edges at width 64; bias, clamp at zero and
  the product with `W2` (Layer2.reluTimes); aggregated over the edges at width 16; the last bias row added
  (Layer3.plusRow). The two bias vectors enter as one-row matrices.
-/
import proofs.«167466_j89086211653947_1_alg».proof.Proof.Layer1
import proofs.«167466_j89086211653947_1_alg».proof.Proof.Layer2
import proofs.«167466_j89086211653947_1_alg».proof.Proof.Layer3
import proofs.«167466_j89086211653947_1_alg».proof.Proof.Aggregate

noncomputable section

namespace Cert.KernelIdeal.Network

open Cert.KernelIdeal Cert.KernelIdeal.Gen Idealize.ShloMosaic

/-- The network's output, [100000, 16], from the arguments in @main's order. -/
def network (x : (⟨S100000x128, .f32⟩ : BufTy).Contents (Elt Ideal)) (vals : (⟨S1600000, .f32⟩ : BufTy).Contents (Elt Ideal))
    (w1 : (⟨S128x64, .f32⟩ : BufTy).Contents (Elt Ideal)) (b1 : (⟨S64, .f32⟩ : BufTy).Contents (Elt Ideal))
    (w2 : (⟨S64x16, .f32⟩ : BufTy).Contents (Elt Ideal)) (b2 : (⟨S16, .f32⟩ : BufTy).Contents (Elt Ideal))
    (rows cols : (⟨S1600000, .i32⟩ : BufTy).Contents (Elt Ideal)) : (⟨S100000x16, .f32⟩ : BufTy).Contents (Elt Ideal) :=
  Layer3.plusRow
    (Aggregate.aggregate16 vals rows cols
      (Layer2.reluTimes (Aggregate.aggregate64 vals rows cols (Layer1.rowsTimes x w1))
        (shapeCast S1x64 b1 shapeCasts_S64_S1x64) w2))
    (shapeCast S1x16 b2 shapeCasts_S16_S1x16)

end Cert.KernelIdeal.Network

end
-- ==== Proof.KernelValue.lean ====
/-
  What the kernel's program leaves in its result array: `Network.network` of the argument arrays. Read off the run
  boundary by boundary: the first call leaves `x · W1`; the host stretch aggregates it over the edges and lays `b1` out
  as a row; the second call leaves relu (h + b1) · W2; the next host stretch aggregates that and lays `b2` out as a row;
  the third call adds the row.
-/
import proofs.«167466_j89086211653947_1_alg».proof.Proof.KernelRun
import proofs.«167466_j89086211653947_1_alg».proof.Proof.Network
import Idealize.ShloMosaic.Lib.StableHlo.Run

set_option maxRecDepth 16384

noncomputable section

namespace Cert.KernelIdeal.Whole

open Cert.KernelIdeal Cert.KernelIdeal.Gen Cert.KernelIdeal.Named Idealize.ShloMosaic Idealize.ShloMosaic.TcCoe Idealize.SL.Sem
open Idealize.ShloMosaic.StableHlo

variable (m : (ℓ : Loc nD τ sig) → Buf (Elt Ideal) ℓ) (ρ : Dev nD → PrngReg)

/-- After the first call its output array holds `x · W1`. -/
theorem first_call (c : Dev nD) :
    W1 m ρ c (Proc.devRef .tc main_v0)
      = Layer1.rowsTimes (m ((c : Thread nD τ).loc main_arg0)) (m ((c : Thread nD τ).loc main_arg2)) :=
  (W1_arr m ρ c 2).trans (Layer1.final (V0 m ρ) c)

/-- The host stretch after it leaves the aggregated hidden array … -/
theorem hidden_pre (c : Dev nD) :
    W2 m ρ c (Proc.devRef .tc main_v13)
      = Aggregate.aggregate64 (m ((c : Thread nD τ).loc main_arg1)) (m ((c : Thread nD τ).loc main_arg6)) (m ((c : Thread nD τ).loc main_arg7))
          (Layer1.rowsTimes (m ((c : Thread nD τ).loc main_arg0)) (m ((c : Thread nD τ).loc main_arg2))) := by
  show StableHlo.after hostOps1 (W1 m ρ c) (Proc.devRef .tc main_v13) = _
  after_results
  rw [W1_main_arg6 m ρ c, W1_main_arg1 m ρ c, W1_main_arg7 m ρ c, first_call m ρ c]
  rfl

/-- … and `b1` as a one-row matrix. -/
theorem bias1_row (c : Dev nD) :
    W2 m ρ c (Proc.devRef .tc main_v14) = shapeCast S1x64 (m ((c : Thread nD τ).loc main_arg3)) shapeCasts_S64_S1x64 := by
  show StableHlo.after hostOps1 (W1 m ρ c) (Proc.devRef .tc main_v14) = _
  after_results
  rw [W1_main_arg3 m ρ c]
  rfl

/-- After the second call its output array holds relu (h + b1) · W2 of the aggregated hidden array. -/
theorem second_call (c : Dev nD) :
    W3 m ρ c (Proc.devRef .tc main_v15)
      = Layer2.reluTimes
          (Aggregate.aggregate64 (m ((c : Thread nD τ).loc main_arg1)) (m ((c : Thread nD τ).loc main_arg6)) (m ((c : Thread nD τ).loc main_arg7))
            (Layer1.rowsTimes (m ((c : Thread nD τ).loc main_arg0)) (m ((c : Thread nD τ).loc main_arg2))))
          (shapeCast S1x64 (m ((c : Thread nD τ).loc main_arg3)) shapeCasts_S64_S1x64) (m ((c : Thread nD τ).loc main_arg4)) := by
  refine ((W3_arr m ρ c 3).trans (Layer2.final (V2 m ρ) c)).trans ?_
  show Layer2.reluTimes (W2 m ρ c (Proc.devRef .tc main_v13)) (W2 m ρ c (Proc.devRef .tc main_v14)) (W2 m ρ c (Proc.devRef .tc main_arg4)) = _
  rw [hidden_pre m ρ c, bias1_row m ρ c, W2_main_arg4 m ρ c]

/-- The next host stretch aggregates, over the edges, whatever the second call left … -/
theorem out_pre_at_boundary (c : Dev nD) :
    W4 m ρ c (Proc.devRef .tc main_v28)
      = Aggregate.aggregate16 (W3 m ρ c (Proc.devRef .tc main_arg1)) (W3 m ρ c (Proc.devRef .tc main_arg6)) (W3 m ρ c (Proc.devRef .tc main_arg7))
          (W3 m ρ c (Proc.devRef .tc main_v15)) := by
  show StableHlo.after hostOps2 (W3 m ρ c) (Proc.devRef .tc main_v28) = _
  after_results
  rfl

/-- … which is the second stage's output of the aggregated hidden array … -/
theorem out_pre (c : Dev nD) :
    W4 m ρ c (Proc.devRef .tc main_v28)
      = Aggregate.aggregate16 (m ((c : Thread nD τ).loc main_arg1)) (m ((c : Thread nD τ).loc main_arg6)) (m ((c : Thread nD τ).loc main_arg7))
          (Layer2.reluTimes
            (Aggregate.aggregate64 (m ((c : Thread nD τ).loc main_arg1)) (m ((c : Thread nD τ).loc main_arg6)) (m ((c : Thread nD τ).loc main_arg7))
              (Layer1.rowsTimes (m ((c : Thread nD τ).loc main_arg0)) (m ((c : Thread nD τ).loc main_arg2))))
            (shapeCast S1x64 (m ((c : Thread nD τ).loc main_arg3)) shapeCasts_S64_S1x64) (m ((c : Thread nD τ).loc main_arg4))) := by
  rw [out_pre_at_boundary m ρ c, W3_main_arg6 m ρ c, W3_main_arg1 m ρ c, W3_main_arg7 m ρ c, second_call m ρ c]

/-- … and `b2` as a one-row matrix. -/
theorem bias2_row (c : Dev nD) :
    W4 m ρ c (Proc.devRef .tc main_v29) = shapeCast S1x16 (m ((c : Thread nD τ).loc main_arg5)) shapeCasts_S16_S1x16 := by
  show StableHlo.after hostOps2 (W3 m ρ c) (Proc.devRef .tc main_v29) = _
  after_results
  rw [W3_main_arg5 m ρ c]
  rfl

/-- After the third call the result array holds the network's output. -/
theorem result (c : Dev nD) :
    W5 m ρ c (Proc.devRef .tc main_v30)
      = Network.network (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  refine ((W5_arr m ρ c 2).trans (Layer3.final (V4 m ρ) c)).trans ?_
  show Layer3.plusRow (W4 m ρ c (Proc.devRef .tc main_v28)) (W4 m ρ c (Proc.devRef .tc main_v29)) = _
  rw [out_pre m ρ c, bias2_row m ρ c]
  rfl

/-- The kernel's run with its result named: every weakly fair execution terminates, nothing faulting, the result array
    at the network's output of the arguments and the arguments unchanged. -/
theorem run : θ_run defs (onTc (τ := τ) (main (F := Ideal))) ⟨m, fun _ => 0, ρ⟩ (fun r => ∀ c : Dev nD,
      r.2.mem ((c.tc : Thread nD τ).loc main_v30)
        = Network.network (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Named.run m ρ)

end Cert.KernelIdeal.Whole

end
-- ==== Proof.RefValue.lean ====
/-
  What the reference computes is `Network.network` of its arguments. Its two `dot_general`s are the same sums over the
  shared axis as the kernel's dense stages, its bias vectors broadcast along the rows read the same entries as the
  kernel's one-row matrices, `relu` is the maximum with zero, and the aggregation over the edges is the very function
  the kernel's program applies on the host.
-/
import proofs.«167466_j89086211653947_1_alg».proof.Proof.Gen.ReferenceIdeal.Read
import proofs.«167466_j89086211653947_1_alg».proof.Proof.Network
import Idealize.ShloMosaic.Lib.ValueLayout

set_option maxRecDepth 16384

noncomputable section

namespace Cert.ReferenceIdeal.Whole

open Cert.ReferenceIdeal Cert.ReferenceIdeal.Gen Cert.ReferenceIdeal.Read Idealize.ShloMosaic Idealize.ShloMosaic.TcCoe
open Idealize.ShloMosaic.ValueIdx

/-! ## The first dense layer -/

/-- `x @ W1` on the host is the sum over the 128 shared positions, entry by entry. -/
theorem first_dense (x : (⟨S100000x128, .f32⟩ : BufTy).Contents (Elt Ideal)) (w : (⟨S128x64, .f32⟩ : BufTy).Contents (Elt Ideal)) :
    Host.dotGeneral (F := Ideal) (φ₁ := .f32) (φ₂ := .f32) dot_S100000x128_S128x64_S100000x64_1_0_0_1_n_n none x w = Cert.KernelIdeal.Layer1.rowsTimes x w := by
  funext i
  refine (val_main_v0_apply x w i).trans ?_
  unfold Cert.KernelIdeal.Layer1.rowsTimes
  refine Finset.sum_congr rfl fun k _ => ?_
  have e1 : lidx_main_v0 i k = Cert.KernelIdeal.Layer1.rowAt i k := funext fun a => Fin.ext (by match a with | ⟨0, _⟩ => rfl | ⟨1, _⟩ => rfl)
  have e2 : ridx_main_v0 i k = Cert.KernelIdeal.Layer1.colAt i k := funext fun a => Fin.ext (by match a with | ⟨0, _⟩ => rfl | ⟨1, _⟩ => rfl)
  rw [e1, e2]

/-! ## The second dense layer -/

/-- The host's second `dot_general` at an entry, for any left operand: the sum over the 64 shared positions. -/
theorem second_dot_apply (y : (⟨S100000x64, .f32⟩ : BufTy).Contents (Elt Ideal)) (w : (⟨S64x16, .f32⟩ : BufTy).Contents (Elt Ideal)) (i : S100000x16.Idx) :
    Host.dotGeneral (F := Ideal) (φ₁ := .f32) (φ₂ := .f32) dot_S100000x64_S64x16_S100000x16_1_0_0_1_n_n none y w i = ∑ k : Fin 64, y (lidx_main_v18 i k) * w (ridx_main_v18 i k) := by
  simp only [Host.dotGeneral]
  rw [Ideal.dotGeneral_apply, ← Equiv.sum_comp (contrEquiv1 dot_S100000x64_S64x16_S100000x16_1_0_0_1_n_n 64 rfl rfl).symm]
  refine Finset.sum_congr rfl fun k _ => ?_
  have hk := contrEquiv1_symm_val dot_S100000x64_S64x16_S100000x16_1_0_0_1_n_n 64 rfl rfl k
  have el : dot_S100000x64_S64x16_S100000x16_1_0_0_1_n_n.lhsIdx i ((contrEquiv1 dot_S100000x64_S64x16_S100000x16_1_0_0_1_n_n 64 rfl rfl).symm k) = lidx_main_v18 i k := funext fun a => Fin.ext (by
    match a with
    | ⟨0, _⟩ => exact lhs_main_v18_0 _ _
    | ⟨1, _⟩ => exact (lhs_main_v18_1 _ _).trans hk)
  have er : dot_S100000x64_S64x16_S100000x16_1_0_0_1_n_n.rhsIdx i ((contrEquiv1 dot_S100000x64_S64x16_S100000x16_1_0_0_1_n_n 64 rfl rfl).symm k) = ridx_main_v18 i k := funext fun a => Fin.ext (by
    match a with
    | ⟨0, _⟩ => exact (rhs_main_v18_0 _ _).trans hk
    | ⟨1, _⟩ => exact rhs_main_v18_1 _ _)
  rw [el, er]

/-- `relu (h + b1) @ W2` on the host, with `b1` broadcast along the rows, is the kernel's second stage with `b1` as a
    one-row matrix. -/
theorem second_dense (h : (⟨S100000x64, .f32⟩ : BufTy).Contents (Elt Ideal)) (b : (⟨S64, .f32⟩ : BufTy).Contents (Elt Ideal))
    (w : (⟨S64x16, .f32⟩ : BufTy).Contents (Elt Ideal)) :
    Host.dotGeneral (F := Ideal) (φ₁ := .f32) (φ₂ := .f32) dot_S100000x64_S64x16_S100000x16_1_0_0_1_n_n none (maximumf (F := Ideal) (φ := .f32) (addf (F := Ideal) (φ := .f32) h (val_main_v15 (F := Ideal) b)) (val_main_call0_v0 (F := Ideal))) w
      = Cert.KernelIdeal.Layer2.reluTimes h (shapeCast Cert.KernelIdeal.S1x64 b Cert.KernelIdeal.Gen.shapeCasts_S64_S1x64) w := by
  funext i
  refine (second_dot_apply _ w i).trans ?_
  unfold Cert.KernelIdeal.Layer2.reluTimes
  refine Finset.sum_congr rfl fun k _ => ?_
  show max (h (lidx_main_v18 i k) + val_main_v15 (F := Ideal) b (lidx_main_v18 i k)) (val_main_call0_v0 (F := Ideal) (lidx_main_v18 i k)) * w (ridx_main_v18 i k) = _
  rw [val_main_v15_apply, val_main_v14_apply, val_main_call0_v0_apply, val_main_call0_cst_apply]
  have e1 : lidx_main_v18 i k = Cert.KernelIdeal.Layer2.rowAt i k := funext fun a => Fin.ext (by match a with | ⟨0, _⟩ => rfl | ⟨1, _⟩ => rfl)
  have e2 : ridx_main_v18 i k = Cert.KernelIdeal.Layer2.colAt i k := funext fun a => Fin.ext (by match a with | ⟨0, _⟩ => rfl | ⟨1, _⟩ => rfl)
  have e3 : idx_main_v14 (idx_main_v15 (lidx_main_v18 i k)) = ix1 k := funext fun a => Fin.ext (by match a with | ⟨0, _⟩ => rfl)
  have e4 : shapeCast Cert.KernelIdeal.S1x64 b Cert.KernelIdeal.Gen.shapeCasts_S64_S1x64 (Cert.KernelIdeal.Layer2.biasAt k) = b (ix1 k) :=
    shapeCast_a_1a_apply b _ (0 : Fin 1) k
  rw [e3, e4, e1, e2]
  rfl

/-! ## The last bias -/

/-- Adding `b2` broadcast along the rows is adding the one-row matrix to every row. -/
theorem last_bias (a : (⟨S100000x16, .f32⟩ : BufTy).Contents (Elt Ideal)) (b : (⟨S16, .f32⟩ : BufTy).Contents (Elt Ideal)) :
    addf (F := Ideal) (φ := .f32) a (val_main_v33 (F := Ideal) b) = Cert.KernelIdeal.Layer3.plusRow a (shapeCast Cert.KernelIdeal.S1x16 b Cert.KernelIdeal.Gen.shapeCasts_S16_S1x16) := by
  funext i
  show a i + val_main_v33 (F := Ideal) b i = a i + shapeCast Cert.KernelIdeal.S1x16 b Cert.KernelIdeal.Gen.shapeCasts_S16_S1x16 (Cert.KernelIdeal.Layer3.biasAt i)
  rw [val_main_v33_apply, val_main_v32_apply]
  have e3 : idx_main_v32 (idx_main_v33 i) = ix1 (⟨(i 1).val, idx2_lt1 i⟩ : Fin 16) := funext fun a => Fin.ext (by match a with | ⟨0, _⟩ => rfl)
  have e4 : shapeCast Cert.KernelIdeal.S1x16 b Cert.KernelIdeal.Gen.shapeCasts_S16_S1x16 (Cert.KernelIdeal.Layer3.biasAt i) = b (ix1 (⟨(i 1).val, idx2_lt1 i⟩ : Fin 16)) :=
    shapeCast_a_1a_apply b _ (0 : Fin 1) _
  rw [e3, e4]

/-! ## The aggregation -/

/-- The reference's start indices are the kernel's program's. -/
theorem start_eq (x7 : (⟨S1600000, .i32⟩ : BufTy).Contents (Elt Ideal)) :
    val_main_v7 (F := Ideal) x7 = Cert.KernelIdeal.Aggregate.startIndices x7 := rfl
theorem start_eq' (x7 : (⟨S1600000, .i32⟩ : BufTy).Contents (Elt Ideal)) :
    val_main_v25 (F := Ideal) x7 = Cert.KernelIdeal.Aggregate.startIndices x7 := rfl

/-- The reference's aggregation at width 64 is the kernel's program's, of any array. -/
theorem aggregate64_eq (x1 : (⟨S1600000, .f32⟩ : BufTy).Contents (Elt Ideal)) (x6 x7 : (⟨S1600000, .i32⟩ : BufTy).Contents (Elt Ideal))
    (d : (⟨S100000x64, .f32⟩ : BufTy).Contents (Elt Ideal)) :
    Host.scatterAdd (F := Ideal) (φ := .f32) scatter_S100000x64_S1600000x1_S1600000x64_1_0_0_1 (val_main_v11 (F := Ideal)) (val_main_v12 (F := Ideal) x6)
      (mulf (F := Ideal) (φ := .f32) (val_main_v9 (F := Ideal) x1) (Host.gather gather_S100000x64_S1600000x1_S1600000x64_1_0_n_n_0_1_164 d (val_main_v7 (F := Ideal) x7)))
    = Cert.KernelIdeal.Aggregate.aggregate64 x1 x6 x7 d := by
  rw [start_eq]
  rfl

/-- The reference's aggregation at width 16 is the kernel's program's, of any array. -/
theorem aggregate16_eq (x1 : (⟨S1600000, .f32⟩ : BufTy).Contents (Elt Ideal)) (x6 x7 : (⟨S1600000, .i32⟩ : BufTy).Contents (Elt Ideal))
    (d : (⟨S100000x16, .f32⟩ : BufTy).Contents (Elt Ideal)) :
    Host.scatterAdd (F := Ideal) (φ := .f32) scatter_S100000x16_S1600000x1_S1600000x16_1_0_0_1 (val_main_v29 (F := Ideal)) (val_main_v30 (F := Ideal) x6)
      (mulf (F := Ideal) (φ := .f32) (val_main_v27 (F := Ideal) x1) (Host.gather gather_S100000x16_S1600000x1_S1600000x16_1_0_n_n_0_1_116 d (val_main_v25 (F := Ideal) x7)))
    = Cert.KernelIdeal.Aggregate.aggregate16 x1 x6 x7 d := by
  rw [start_eq']
  rfl

/-! ## The whole reference -/

/-- The reference's result, as its run states it, is `network` of the arguments: stage by stage, from the first
    product outwards. -/
theorem result_eq (x0 : (⟨S100000x128, .f32⟩ : BufTy).Contents (Elt Ideal)) (x1 : (⟨S1600000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal))
    (x6 x7 : (⟨S1600000, .i32⟩ : BufTy).Contents (Elt Ideal)) :
    val_main_v34 (F := Ideal) x0 x1 x2 x3 x4 x5 x6 x7 = Cert.KernelIdeal.Network.network x0 x1 x2 x3 x4 x5 x6 x7 := by
  unfold val_main_v34 val_main_v31 val_main_v28 val_main_v26 val_main_v18 val_main_v17 val_main_v16 val_main_v13 val_main_v10 val_main_v8 val_main_v0
  rw [first_dense, aggregate64_eq, second_dense, aggregate16_eq, last_bias]
  rfl

end Cert.ReferenceIdeal.Whole

end
-- ==== Proof.lean ====
/-
  A two-layer graph convolution, computed two ways, gives one function of its eight arguments over the extended reals.

  The kernel's program runs three tiled calls with host work between them: rows of `x` times `W1` (ten blocks of 10000
  rows, each one product on the matrix unit into a zero accumulator); on the host, a gather of rows by `adj_cols`, a
  scaling by `adj_vals` and a scatter-add by `adj_rows`; then, block by block, bias `b1`, the clamp at zero and the product
  with `W2`; the same aggregation at width 16; and a last call that adds `b2` to every row. The reference does the two
  products as whole `dot_general`s, the biases as broadcasts, `relu` as a maximum with zero, and the same aggregation.

  Over the extended reals a change of float format is the identity and a product into a zero accumulator is the plain
  sum over the shared axis, so each tiled stage is one whole-array function (Layer1.rowsTimes, Layer2.reluTimes,
  Layer3.plusRow), the blocks being restrictions of it that tile the array; the reference's stages are the same
  functions entry by entry (the sums over the shared axis are term-for-term the same, a bias broadcast along the rows
  reads the entry the one-row matrix holds); and the aggregation is literally the same host function on both sides, so
  it is carried unopened. Both results are `Network.network` of the arguments. No law used needs finiteness: only
  `0 + s = s`, and equal sums of equal terms.

  The frames of the two kernel programs are the generated ones; the reference's is its generated run with the result
  dropped; the idealization rewrote nothing, so there is nothing to preserve.
-/
import proofs.«167466_j89086211653947_1_alg».proof.Defs
import proofs.«167466_j89086211653947_1_alg».proof.Proof.Gen.Kernel
import proofs.«167466_j89086211653947_1_alg».proof.Proof.Gen.Kernel.Skeleton
import proofs.«167466_j89086211653947_1_alg».proof.Proof.Gen.Kernel.Launch
import proofs.«167466_j89086211653947_1_alg».proof.Proof.Gen.Kernel.Points
import proofs.«167466_j89086211653947_1_alg».proof.Proof.Gen.Kernel.Frame
import proofs.«167466_j89086211653947_1_alg».proof.Proof.Gen.KernelIdeal
import proofs.«167466_j89086211653947_1_alg».proof.Proof.Gen.KernelIdeal.Skeleton
import proofs.«167466_j89086211653947_1_alg».proof.Proof.Gen.KernelIdeal.Launch
import proofs.«167466_j89086211653947_1_alg».proof.Proof.Gen.KernelIdeal.Points
import proofs.«167466_j89086211653947_1_alg».proof.Proof.Gen.KernelIdeal.Frame
import proofs.«167466_j89086211653947_1_alg».proof.Proof.Gen.ReferenceIdeal
import proofs.«167466_j89086211653947_1_alg».proof.Proof.Gen.Pre_finite_inputs
import proofs.«167466_j89086211653947_1_alg».proof.Proof.Gen.ReferenceIdeal.Run
import proofs.«167466_j89086211653947_1_alg».proof.Proof.Gen.ReferenceIdeal.Read
import proofs.«167466_j89086211653947_1_alg».proof.Proof.KernelValue
import proofs.«167466_j89086211653947_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments alone: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `network` of the arguments in their result. -/
theorem algebraic : Cert.algebraic_KernelIdeal_ReferenceIdeal := by
  intro m ρ m' ρ' _ hagree
  refine ⟨fun c => Cert.KernelIdeal.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v34_eq, Cert.ReferenceIdeal.Whole.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
